-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x56x56x256 : Shape := ⟨4, ![32, 56, 56, 256]⟩
abbrev S256 : Shape := ⟨1, ![256]⟩
abbrev S_ : Shape := ⟨0, ![]⟩

class Facts : Prop where
  bcast_S_S32x56x56x256 : S_.BroadcastsInDim S32x56x56x256 (![] : Fin 0 → Fin S32x56x56x256.rank)
  reducesTo_S32x56x56x256_S_d0_1_2_3 : S32x56x56x256.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S32x56x56x256 .f32) (main_arg1 : FVec F S32x56x56x256 .f32) (main_arg2 : FVec F S256 .f32) (main_arg3 : FVec F S256 .f32) (main_arg4 : FVec F S256 .f32) : IVec S_ 1 :=
  let main_v0 : FVec F S32x56x56x256 .f32 := Host.absf main_arg0
  let main_cst : FVec F S_ .f32 := constant S_ .f32 0x7F800000#32
  let main_v1 : FVec F S32x56x56x256 .f32 := broadcastInDim S32x56x56x256 ![] bcast_S_S32x56x56x256 main_cst
  let main_v2 : IVec S32x56x56x256 1 := cmpf .olt main_v0 main_v1
  let main_c : IVec S_ 1 := constantI S_ 1 1#1
  let main_v3 : IVec S_ 1 := (fun x v => Host.reduce IntOp.andi x v reducesTo_S32x56x56x256_S_d0_1_2_3 h_S_) main_v2 main_c
  let main_v4 : FVec F S32x56x56x256 .f32 := Host.absf main_arg1
  let main_cst_0 : FVec F S_ .f32 := constant S_ .f32 0x7F800000#32
  let main_v5 : FVec F S32x56x56x256 .f32 := broadcastInDim S32x56x56x256 ![] bcast_S_S32x56x56x256 main_cst_0
  let main_v6 : IVec S32x56x56x256 1 := cmpf .olt main_v4 main_v5
  let main_c_1 : IVec S_ 1 := constantI S_ 1 1#1
  let main_v7 : IVec S_ 1 := (fun x v => Host.reduce IntOp.andi x v reducesTo_S32x56x56x256_S_d0_1_2_3 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_v13 main_v16
-- ==== Kernel.lean ====
abbrev S32x56x56x256 : Shape := ⟨4, ![32, 56, 56, 256]⟩
abbrev S256 : Shape := ⟨1, ![256]⟩
abbrev S1x56x56x256 : Shape := ⟨4, ![1, 56, 56, 256]⟩
abbrev S1x1x1x256 : Shape := ⟨4, ![1, 1, 1, 256]⟩

abbrev nBuf : Space → Nat
  | .hbm => 6
  | .vmem => 9
  | .smem => 0
  | _ => 0

abbrev bufTy : (tb : Table) → Fin (tcTables nBuf tb) → BufTy
  | .hbm, ⟨0, _⟩ => ⟨S32x56x56x256, .f32⟩
  | .hbm, ⟨1, _⟩ => ⟨S32x56x56x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S32x56x56x256, .f32⟩
  | .local _ .vmem, ⟨0, _⟩ => ⟨S1x56x56x256, .f32⟩
  | .local _ .vmem, ⟨1, _⟩ => ⟨S1x56x56x256, .f32⟩
  | .local _ .vmem, ⟨2, _⟩ => ⟨S1x56x56x256, .f32⟩
  | .local _ .vmem, ⟨3, _⟩ => ⟨S1x56x56x256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S1x56x56x256, .f32⟩
  | .local _ .vmem, ⟨8, _⟩ => ⟨S1x56x56x256, .f32⟩
  | _, _ => ⟨S32x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x56x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x56x56x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x56x56x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S256_S256_0 : ∀ a, (![0] : Fin 1 → Nat) a + S256.size a ≤ S256.size a
  h_S256 : 0 < S256.numel
  inb_S1x56x56x256_S1x56x56x256_0_0_0_0 : ∀ a, (![0, 0, 0, 0] : Fin 4 → Nat) a + S1x56x56x256.size a ≤ S1x56x56x256.size a
  h_S1x56x56x256 : 0 < S1x56x56x256.numel
  shapeCasts_S256_S1x1x1x256 : S256.ShapeCasts S1x1x1x256
  broadcasts_S1x1x1x256_S1x56x56x256 : S1x1x1x256.Broadcasts S1x56x56x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x56x256.size a ≤ S32x56x56x256.size a
  hwx0_0 : ∀ i : grid0.Coords, EltTy.bits .f32 = 32 ∨ (Rect.block (s := S32x56x56x256) S1x56x56x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x56x56x256.size a ≤ S32x56x56x256.size a
  hwx0_1 : ∀ i : grid0.Coords, EltTy.bits .f32 = 32 ∨ (Rect.block (s := S32x56x56x256) S1x56x56x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x56x56x256.size a ≤ S32x56x56x256.size a
  hwx0_5 : ∀ i : grid0.Coords, EltTy.bits .f32 = 32 ∨ (Rect.block (s := S32x56x56x256) S1x56x56x256.size (cc0_transform_5 i) (hinb0_5 i)).WholeWords (EltTy.packing .f32)

variable [Facts₀]

abbrev win0_0 : Pipeline.Window sig grid0 :=
  Pipeline.Window.ofSpec (Memref.whole main_arg0) S1x56x56x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x56x56x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x56x56x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x56x56x256 : Shape := ⟨4, ![32, 56, 56, 256]⟩
abbrev S256 : Shape := ⟨1, ![256]⟩
abbrev S1x1x1x256 : Shape := ⟨4, ![1, 1, 1, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S32x56x56x256, .f32⟩
  | .hbm, ⟨1, _⟩ => ⟨S32x56x56x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S1x1x1x256, .f32⟩
  | .hbm, ⟨6, _⟩ => ⟨S32x56x56x256, .f32⟩
  | .hbm, ⟨7, _⟩ => ⟨S32x56x56x256, .f32⟩
  | .hbm, ⟨8, _⟩ => ⟨S1x1x1x256, .f32⟩
  | .hbm, ⟨9, _⟩ => ⟨S32x56x56x256, .f32⟩
  | .hbm, ⟨10, _⟩ => ⟨S32x56x56x256, .f32⟩
  | .hbm, ⟨11, _⟩ => ⟨S32x56x56x256, .f32⟩
  | .hbm, ⟨12, _⟩ => ⟨S1x1x1x256, .f32⟩
  | .hbm, ⟨13, _⟩ => ⟨S32x56x56x256, .f32⟩
  | .hbm, ⟨14, _⟩ => ⟨S32x56x56x256, .f32⟩
  | .hbm, ⟨15, _⟩ => ⟨S_, .f32⟩
  | .hbm, ⟨16, _⟩ => ⟨S32x56x56x256, .f32⟩
  | .hbm, ⟨17, _⟩ => ⟨S32x56x56x256, .f32⟩
  | _, _ => ⟨S32x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S256_S1x1x1x256_3 : S256.BroadcastsInDim S1x1x1x256 (![3] : Fin 1 → Fin S1x1x1x256.rank)
  bcast_S1x1x1x256_S32x56x56x256_0_1_2_3 : S1x1x1x256.BroadcastsInDim S32x56x56x256 (![0, 1, 2, 3] : Fin 4 → Fin S32x56x56x256.rank)
  bcast_S_S32x56x56x256 : S_.BroadcastsInDim S32x56x56x256 (![] : Fin 0 → Fin S32x56x56x256.rank)

variable [Facts₀]

class Facts : Prop extends Facts₀ where

variable [Facts]
-- ==== Proof.KernelBlock.lean ====
/-
  What one grid point leaves in the output block.

  A grid point handles one batch entry: its two activation blocks are 1 × 56 × 56 × 256 slabs and its three bias
  blocks are the whole 256-channel vectors. The body reshapes each bias to 1 × 1 × 1 × 256, broadcasts it over
  rows and columns, adds in the grouping ((x0 + b0) + (x1 + b1)) + cb, takes the maximum with zero and stores the
  slab whole. So the entry of the stored slab at a block index y depends on the two activation blocks at y itself
  and on the three biases at y's channel coordinate y 3.
-/
import proofs.«132409_j58737972740836_1_alg».proof.Proof.Gen.KernelIdeal.Value
import Idealize.ShloMosaic.Lib.ValueIdx
import Idealize.ShloMosaic.Lib.Pipeline.Value

noncomputable section

namespace Cert.NormAdd.Kernel

open Cert.KernelIdeal Cert.KernelIdeal.Gen Idealize.ShloMosaic Idealize.ShloMosaic.ValueIdx

/-- The origin of a rank-4 block, as the constant function. -/
theorem origin4 : (![0, 0, 0, 0] : Fin 4 → Nat) = fun _ => 0 := funext fun a => by fin_cases a <;> rfl

/-- The origin of a rank-1 block, as the constant function. -/
theorem origin1 : (![0] : Fin 1 → Nat) = fun _ => 0 := funext fun a => by fin_cases a <;> rfl

/-- A slab has one batch entry, so a slab index with its batch coordinate replaced by 0 is the index itself:
    where the stored value reads the first activation block. -/
theorem read_x0_at (y : S1x56x56x256.Idx) : Value.ix5_0 y = y := by
  have hy0 : (y 0).val < 1 := (y 0).isLt
  funext a; apply Fin.ext
  match a with
  | ⟨0, _⟩ => show 0 = (y 0).val; omega
  | ⟨1, _⟩ => rfl
  | ⟨2, _⟩ => rfl
  | ⟨3, _⟩ => rfl

/-- The same for the second activation block. -/
theorem read_x1_at (y : S1x56x56x256.Idx) : Value.ix5_2 y = y := by
  have hy0 : (y 0).val < 1 := (y 0).isLt
  funext a; apply Fin.ext
  match a with
  | ⟨0, _⟩ => show 0 = (y 0).val; omega
  | ⟨1, _⟩ => rfl
  | ⟨2, _⟩ => rfl
  | ⟨3, _⟩ => rfl

/-- Each bias is read at the slab index's channel coordinate. -/
theorem read_b0_at (y : S1x56x56x256.Idx) : Value.ix5_1 y = ix1 (y 3) :=
  funext fun a => match a with | ⟨0, _⟩ => rfl

theorem read_b1_at (y : S1x56x56x256.Idx) : Value.ix5_3 y = ix1 (y 3) :=
  funext fun a => match a with | ⟨0, _⟩ => rfl

theorem read_cb_at (y : S1x56x56x256.Idx) : Value.ix5_4 y = ix1 (y 3) :=
  funext fun a => match a with | ⟨0, _⟩ => rfl

/-- The slab the body stores, at a slab index: the rectified biased sum of the two activation blocks at that
    index and the three biases at its channel. -/
theorem stored_apply (x0 x1 : FVec Ideal S1x56x56x256 .f32) (b0 b1 cb : FVec Ideal S256 .f32) (y : S1x56x56x256.Idx) :
    out0_5 (F := Ideal) x0 x1 b0 b1 cb y
      = max (((x0 y + b0 (ix1 (y 3))) + (x1 y + b1 (ix1 (y 3)))) + cb (ix1 (y 3))) (Ideal.ofBits .f32 0x00000000#32) := by
  unfold out0_5
  rw [Value.canon5_eq]
  simp only [View.ld_unit_zero (S := S1x56x56x256) origin4, View.ld_unit_zero (S := S256) origin1]
  show max (((x0 (Value.ix5_0 y) + b0 (Value.ix5_1 y)) + (x1 (Value.ix5_2 y) + b1 (Value.ix5_3 y))) + cb (Value.ix5_4 y))
      (Ideal.ofBits .f32 0x00000000#32) = _
  rw [read_x0_at, read_x1_at, read_b0_at, read_b1_at, read_cb_at]
  rfl

end Cert.NormAdd.Kernel

end
-- ==== Proof.Spec.lean ====
/-
  The function both programs compute, at the extended reals.

  The activations are arrays over (batch, row, column, channel) = 32 × 56 × 56 × 256 and the three biases are
  vectors over the 256 channels. At an activation index i with channel coordinate k = i 3 the result is

      max ( ((x0 i + b0 k) + (x1 i + b1 k)) + cb k , 0 ) ,

  a rectified sum of two biased activations and a third bias. Every entry of the result depends on one entry of
  each activation array, at the same index, and on one entry of each bias, at the index's channel. The sum is
  kept in the grouping the two programs share, so nothing here needs a law of the extended reals: no
  associativity, no cancelling, and so no finiteness of the inputs.
-/
import Idealize.ShloMosaic.PureOps.Ideal
import Idealize.ShloMosaic.PureOps.Ideal.Laws
import Idealize.ShloMosaic.Lib.ValueIdx

noncomputable section

namespace Cert.NormAdd

open Idealize.ShloMosaic Idealize.ShloMosaic.ValueIdx

/-- The activations' index space: batch, row, column, channel. -/
abbrev Act : Shape := ⟨4, ![32, 56, 56, 256]⟩

/-- The biases' index space: channel. -/
abbrev Chan : Shape := ⟨1, ![256]⟩

/-- The channel an activation index lies in, as an index of a bias vector. -/
abbrev chan (i : Act.Idx) : Chan.Idx := ix1 (i 3)

/-- The rectified biased sum: at each activation index, the two activations each with its own bias of the
    index's channel, added, then the third bias of that channel added, then the maximum with zero. -/
def biasedSumRelu (x0 x1 : Act.Idx → EReal) (b0 b1 cb : Chan.Idx → EReal) : Act.Idx → EReal :=
  fun i => max (((x0 i + b0 (chan i)) + (x1 i + b1 (chan i))) + cb (chan i)) 0

/-- The same entry with the zero written as the float word both programs print for it. -/
theorem biasedSumRelu_apply (x0 x1 : Act.Idx → EReal) (b0 b1 cb : Chan.Idx → EReal) (i : Act.Idx) :
    biasedSumRelu x0 x1 b0 b1 cb i
      = max (((x0 i + b0 (chan i)) + (x1 i + b1 (chan i))) + cb (chan i)) (Ideal.ofBits .f32 0x00000000#32) := by
  rw [Ideal.ofBits_zero_f32]; rfl

end Cert.NormAdd

end
-- ==== Proof.KernelValue.lean ====
/-
  The kernel's result array is the rectified biased sum of its argument arrays.

  The grid has 32 points, one per batch entry. At point t the two activation windows and the output window all
  sit on the slab of batch entry t (block index (t, 0, 0, 0), a block being 1 × 56 × 56 × 256), and each bias
  window sits on its whole vector (block index 0). So the slab point t writes back is the specification
  restricted to batch entry t: an entry at slab index j is the specification at array index (t, j 1, j 2, j 3),
  whose channel is j 3. The 32 slabs cover the array, the slab of an index i being that of the point i 0, so the
  array after the run is the specification everywhere.
-/
import proofs.«132409_j58737972740836_1_alg».proof.Proof.KernelBlock
import proofs.«132409_j58737972740836_1_alg».proof.Proof.Spec

noncomputable section

namespace Cert.NormAdd.Kernel

open Cert.KernelIdeal Cert.KernelIdeal.Gen Idealize.ShloMosaic Idealize.ShloMosaic.TcCoe Idealize.SL.Sem
open Idealize.ShloMosaic.ValueIdx Cert.NormAdd
open Idealize.ShloMosaic.Pipeline (Dat)

variable (m : (ℓ : Loc nD τ sig) → Buf (Elt Ideal) ℓ) (ρ : Dev nD → PrngReg)

/-- Where the windows sit at each grid point, decided over the 32 points: the bias windows stay on block 0 and
    the output window is on block (t, 0, 0, 0). (The activation windows have the output window's own index map,
    so their blocks sit where its block sits by definition.) -/
theorem window_positions : ∀ t : Fin cfg0.N,
    win0_2.index t (0 : Fin 1) = 0 ∧ win0_3.index t (0 : Fin 1) = 0 ∧ win0_4.index t (0 : Fin 1) = 0
    ∧ win0_5.index t (0 : Fin 4) = t.val ∧ win0_5.index t (1 : Fin 4) = 0
    ∧ win0_5.index t (2 : Fin 4) = 0 ∧ win0_5.index t (3 : Fin 4) = 0 :=
  (by decide +kernel : ∀ t : Fin grid0.N, _)

/-- An activation window's block at point t, at a slab index, is its array at the output slab's array index. -/
theorem x0_block_apply (c : Dev nD) (t : Fin cfg0.N) (j : S1x56x56x256.Idx) :
    iblk m c 0 t j = V m c main_arg0 (((cfg0.win 5).blk t).view.emb j) := by
  show V m c main_arg0 (((cfg0.win 0).blk t).view.emb j) = V m c main_arg0 (((cfg0.win 5).blk t).view.emb j)
  rfl

theorem x1_block_apply (c : Dev nD) (t : Fin cfg0.N) (j : S1x56x56x256.Idx) :
    iblk m c 1 t j = V m c main_arg1 (((cfg0.win 5).blk t).view.emb j) := by
  show V m c main_arg1 (((cfg0.win 1).blk t).view.emb j) = V m c main_arg1 (((cfg0.win 5).blk t).view.emb j)
  rfl

/-- A bias window's block, at the channel of a slab index, is its vector at the channel of the output slab's
    array index: the channel axis is not tiled, so the two channels are the same number. -/
theorem b0_block_apply (c : Dev nD) (t : Fin cfg0.N) (j : S1x56x56x256.Idx) :
    iblk m c 2 t (ix1 (j 3)) = V m c main_arg2 (chan (((cfg0.win 5).blk t).view.emb j)) := by
  obtain ⟨e2, -, -, -, -, -, e5⟩ := window_positions t
  show V m c main_arg2 (((cfg0.win 2).blk t).view.emb (ix1 (j 3))) = V m c main_arg2 (chan (((cfg0.win 5).blk t).view.emb j))
  congr 1; funext a; apply Fin.ext
  match a with
  | ⟨0, _⟩ => show win0_2.index t (0 : Fin 1) * 256 + 1 * (j 3).val = win0_5.index t (3 : Fin 4) * 256 + 1 * (j 3).val; omega

theorem b1_block_apply (c : Dev nD) (t : Fin cfg0.N) (j : S1x56x56x256.Idx) :
    iblk m c 3 t (ix1 (j 3)) = V m c main_arg3 (chan (((cfg0.win 5).blk t).view.emb j)) := by
  obtain ⟨-, e3, -, -, -, -, e5⟩ := window_positions t
  show V m c main_arg3 (((cfg0.win 3).blk t).view.emb (ix1 (j 3))) = V m c main_arg3 (chan (((cfg0.win 5).blk t).view.emb j))
  congr 1; funext a; apply Fin.ext
  match a with
  | ⟨0, _⟩ => show win0_3.index t (0 : Fin 1) * 256 + 1 * (j 3).val = win0_5.index t (3 : Fin 4) * 256 + 1 * (j 3).val; omega

theorem cb_block_apply (c : Dev nD) (t : Fin cfg0.N) (j : S1x56x56x256.Idx) :
    iblk m c 4 t (ix1 (j 3)) = V m c main_arg4 (chan (((cfg0.win 5).blk t).view.emb j)) := by
  obtain ⟨-, -, e4, -, -, -, e5⟩ := window_positions t
  show V m c main_arg4 (((cfg0.win 4).blk t).view.emb (ix1 (j 3))) = V m c main_arg4 (chan (((cfg0.win 5).blk t).view.emb j))
  congr 1; funext a; apply Fin.ext
  match a with
  | ⟨0, _⟩ => show win0_4.index t (0 : Fin 1) * 256 + 1 * (j 3).val = win0_5.index t (3 : Fin 4) * 256 + 1 * (j 3).val; omega

/-- What point t writes back is slab t of the rectified biased sum of the argument arrays. -/
theorem flushed_eq (c : Dev nD) (t : Fin cfg0.N) :
    (dats m 0 c).flushed 5 t = ((cfg0.win 5).blk t).view.read (Elt Ideal)
      (biasedSumRelu (V m c main_arg0) (V m c main_arg1) (V m c main_arg2) (V m c main_arg3) (V m c main_arg4)) := by
  rw [Value.flushed5]
  funext j
  show out0_5 (iblk m c 0 t) (iblk m c 1 t) (iblk m c 2 t) (iblk m c 3 t) (iblk m c 4 t) j
    = biasedSumRelu (V m c main_arg0) (V m c main_arg1) (V m c main_arg2) (V m c main_arg3) (V m c main_arg4)
        (((cfg0.win 5).blk t).view.emb j)
  refine (stored_apply (iblk m c 0 t) (iblk m c 1 t) (iblk m c 2 t) (iblk m c 3 t) (iblk m c 4 t) j).trans ?_
  rw [biasedSumRelu_apply, x0_block_apply m c t j, x1_block_apply m c t j, b0_block_apply m c t j,
    b1_block_apply m c t j, cb_block_apply m c t j]

/-- An array index lies in point t's slab iff each coordinate lies in the slab's range on its axis. -/
theorem mem_slab (t : Fin cfg0.N) (i : S32x56x56x256.Idx) :
    i ∈ ((cfg0.win 5).blk t).view.set ↔ ∀ a : Fin 4, win0_5.index t a * S1x56x56x256.size a ≤ (i a).val
      ∧ (i a).val < win0_5.index t a * S1x56x56x256.size a + S1x56x56x256.size a := by
  show i ∈ ((View.whole main_v0).slice (win0_5.rect t)).set ↔ _
  rw [View.set_slice_whole, Rect.mem_set_unit]
  exact Iff.rfl

/-- Every array index lies in the slab of the point its batch coordinate names, and every point writes back. -/
theorem slabs_cover (i : S32x56x56x256.Idx) :
    ∃ t : Fin cfg0.N, (cfg0.win 5).flush t = true ∧ i ∈ ((cfg0.win 5).blk t).view.set := by
  have hi0 : (i 0).val < 32 := (i 0).isLt
  have hi1 : (i 1).val < 56 := (i 1).isLt
  have hi2 : (i 2).val < 56 := (i 2).isLt
  have hi3 : (i 3).val < 256 := (i 3).isLt
  obtain ⟨-, -, -, p0, p1, p2, p3⟩ := window_positions ⟨(i 0).val, hi0⟩
  refine ⟨⟨(i 0).val, hi0⟩, flush0_5 _, ?_⟩
  rw [mem_slab]
  intro a
  match a with
  | ⟨0, _⟩ =>
    show win0_5.index ⟨(i 0).val, hi0⟩ (0 : Fin 4) * 1 ≤ (i 0).val ∧ (i 0).val < win0_5.index ⟨(i 0).val, hi0⟩ (0 : Fin 4) * 1 + 1
    have q0 : win0_5.index ⟨(i 0).val, hi0⟩ (0 : Fin 4) = (i 0).val := p0
    omega
  | ⟨1, _⟩ =>
    show win0_5.index ⟨(i 0).val, hi0⟩ (1 : Fin 4) * 56 ≤ (i 1).val ∧ (i 1).val < win0_5.index ⟨(i 0).val, hi0⟩ (1 : Fin 4) * 56 + 56
    omega
  | ⟨2, _⟩ =>
    show win0_5.index ⟨(i 0).val, hi0⟩ (2 : Fin 4) * 56 ≤ (i 2).val ∧ (i 2).val < win0_5.index ⟨(i 0).val, hi0⟩ (2 : Fin 4) * 56 + 56
    omega
  | ⟨3, _⟩ =>
    show win0_5.index ⟨(i 0).val, hi0⟩ (3 : Fin 4) * 256 ≤ (i 3).val ∧ (i 3).val < win0_5.index ⟨(i 0).val, hi0⟩ (3 : Fin 4) * 256 + 256
    omega

/-- The output array after the run is the rectified biased sum of the argument arrays as launched. -/
theorem result_eq (c : Dev nD) :
    (dats m 0 c).arrAt 5 cfg0.N
      = biasedSumRelu (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 5
    (biasedSumRelu (V m c main_arg0) (V m c main_arg1) (V m c main_arg2) (V m c main_arg3) (V m c main_arg4))
    (fun t _ => flushed_eq m c t) slabs_cover

/-- Every weakly fair execution of the idealized kernel ends with its result at the rectified biased sum of its
    arguments, and the arguments unchanged. -/
theorem run : θ_run defs (onTc (τ := τ) (main (F := Ideal))) ⟨m, fun _ => 0, ρ⟩ fun r => ∀ c : Dev nD,
      r.2.mem ((c : Thread nD τ).loc main_v0)
        = biasedSumRelu (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (Value.run_blocks m ρ)

end Cert.NormAdd.Kernel

end
-- ==== Proof.RefValue.lean ====
/-
  The reference computes the rectified biased sum.

  The reference broadcasts each bias vector along the channel axis, first to 1 × 1 × 1 × 256 and then over batch,
  row and column; an entry of the broadcast at an activation index is the bias at the index's channel. It then
  adds exactly as the specification groups the sum, and its rectifier is the maximum with a broadcast zero. Read
  one operation at a time at an activation index, its result is the specification's entry.
-/
import proofs.«132409_j58737972740836_1_alg».proof.Proof.Gen.ReferenceIdeal.Read
import proofs.«132409_j58737972740836_1_alg».proof.Proof.Spec

noncomputable section

namespace Cert.NormAdd.Reference

open Cert.ReferenceIdeal Cert.ReferenceIdeal.Read Idealize.ShloMosaic Idealize.ShloMosaic.ValueIdx Cert.NormAdd

/-- Broadcasting a bias to 1 × 1 × 1 × 256 and then to the activations' shape reads it at the channel. -/
theorem bcast_idx_b0 (i : S32x56x56x256.Idx) : idx_main_v0 (idx_main_v1 i) = chan i :=
  funext fun a => match a with | ⟨0, _⟩ => rfl

theorem bcast_idx_b1 (i : S32x56x56x256.Idx) : idx_main_v3 (idx_main_v4 i) = chan i :=
  funext fun a => match a with | ⟨0, _⟩ => rfl

theorem bcast_idx_cb (i : S32x56x56x256.Idx) : idx_main_v7 (idx_main_v8 i) = chan i :=
  funext fun a => match a with | ⟨0, _⟩ => rfl

/-- The reference's last stage, as a function of the five argument arrays, is the rectified biased sum. -/
theorem stage_eq (x0 x1 : FVec Ideal S32x56x56x256 .f32) (b0 b1 cb : FVec Ideal S256 .f32) :
    val_main_v10 (F := Ideal) x0 x1 b0 b1 cb = biasedSumRelu x0 x1 b0 b1 cb := by
  funext i
  rw [biasedSumRelu_apply, val_main_v10_apply, val_main_v9_apply, val_main_v6_apply, val_main_v2_apply,
    val_main_v5_apply, val_main_v1_apply, val_main_v0_apply, val_main_v4_apply, val_main_v3_apply,
    val_main_v8_apply, val_main_v7_apply, val_main_call0_v0_apply, val_main_call0_cst_apply,
    bcast_idx_b0, bcast_idx_b1, bcast_idx_cb]
  rfl

end Cert.NormAdd.Reference

end
-- ==== Proof.lean ====
/-
  The certificate of the rectified biased sum: out = max(((x0 + b0) + (x1 + b1)) + conv_bias, 0) over
  32 × 56 × 56 × 256 activations and 256-channel biases, a kernel gridded over the batch against the same
  expression evaluated whole.

  Both programs compute one function of the five argument arrays, the rectified biased sum of Proof/Spec.lean:
  the kernel slab by slab, one batch entry per grid point, each bias reshaped and broadcast inside the body
  (Proof/KernelBlock.lean for one slab, Proof/KernelValue.lean for the array); the reference by broadcasting
  each bias to the activations' shape and adding whole arrays (Proof/RefValue.lean). The two keep the same
  grouping of the sum and the same zero, so the results are equal entry by entry on all extended reals and the
  inputs' finiteness is never used. The idealization rewrote no operation, so the kernel's idealized form is
  the kernel's own text read over the extended reals.
-/
import proofs.«132409_j58737972740836_1_alg».proof.Defs
import proofs.«132409_j58737972740836_1_alg».proof.Proof.Gen.Kernel
import proofs.«132409_j58737972740836_1_alg».proof.Proof.Gen.Kernel.Skeleton
import proofs.«132409_j58737972740836_1_alg».proof.Proof.Gen.Kernel.Launch
import proofs.«132409_j58737972740836_1_alg».proof.Proof.Gen.Kernel.Points
import proofs.«132409_j58737972740836_1_alg».proof.Proof.Gen.Kernel.Frame
import proofs.«132409_j58737972740836_1_alg».proof.Proof.Gen.KernelIdeal
import proofs.«132409_j58737972740836_1_alg».proof.Proof.Gen.KernelIdeal.Skeleton
import proofs.«132409_j58737972740836_1_alg».proof.Proof.Gen.KernelIdeal.Launch
import proofs.«132409_j58737972740836_1_alg».proof.Proof.Gen.KernelIdeal.Points
import proofs.«132409_j58737972740836_1_alg».proof.Proof.Gen.KernelIdeal.Frame
import proofs.«132409_j58737972740836_1_alg».proof.Proof.Gen.ReferenceIdeal
import proofs.«132409_j58737972740836_1_alg».proof.Proof.Gen.Pre_finite_inputs
import proofs.«132409_j58737972740836_1_alg».proof.Proof.Gen.KernelIdeal.Value
import proofs.«132409_j58737972740836_1_alg».proof.Proof.Gen.ReferenceIdeal.Run
import proofs.«132409_j58737972740836_1_alg».proof.Proof.Gen.ReferenceIdeal.Read
import proofs.«132409_j58737972740836_1_alg».proof.Proof.KernelValue
import proofs.«132409_j58737972740836_1_alg».proof.Proof.RefValue
import Idealize.ShloMosaic.Adequacy
import Idealize.ShloMosaic.Init

noncomputable section

namespace Cert.Proof

open Idealize.ShloMosaic Idealize.SL.Sem Cert.NormAdd

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the five arguments both programs end with their result at the rectified biased
    sum of those arguments: the kernel by its slabs covering the array, the reference by its operations read
    one at a time. -/
theorem algebraic : Cert.algebraic_KernelIdeal_ReferenceIdeal := by
  intro m ρ m' ρ' _ hagree
  refine ⟨_, Cert.NormAdd.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.NormAdd.Reference.stage_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
